-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3072 : Shape := ⟨2, ![16384, 3072]⟩
abbrev S16384x1024 : Shape := ⟨2, ![16384, 1024]⟩
abbrev S16384 : Shape := ⟨1, ![16384]⟩
abbrev S1024x2048 : Shape := ⟨2, ![1024, 2048]⟩
abbrev S1024x1024 : Shape := ⟨2, ![1024, 1024]⟩
abbrev S_ : Shape := ⟨0, ![]⟩

class Facts : Prop where
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S16384 : S_.BroadcastsInDim S16384 (![] : Fin 0 → Fin S16384.rank)
  reducesTo_S16384_S_d0 : S16384.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S16384x3072 .f32) (main_arg1 : FVec F S16384x1024 .f32) (main_arg2 : FVec F S16384 .f32) (main_arg3 : FVec F S1024x2048 .f32) (main_arg4 : FVec F S1024x1024 .f32) : IVec S_ 1 :=
  let main_v0 : FVec F S16384x3072 .f32 := Host.absf main_arg0
  let main_cst : FVec F S_ .f32 := constant S_ .f32 0x7F800000#32
  let main_v1 : FVec F S16384x3072 .f32 := broadcastInDim S16384x3072 ![] bcast_S_S16384x3072 main_cst
  let main_v2 : IVec S16384x3072 1 := cmpf .olt main_v0 main_v1
  let main_c : IVec S_ 1 := constantI S_ 1 1#1
  let main_v3 : IVec S_ 1 := (fun x v => Host.reduce IntOp.andi x v reducesTo_S16384x3072_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_v13 main_v16
-- ==== Kernel.lean ====
abbrev S16384x3072 : Shape := ⟨2, ![16384, 3072]⟩
abbrev S16384x1024 : Shape := ⟨2, ![16384, 1024]⟩
abbrev S16384 : Shape := ⟨1, ![16384]⟩
abbrev S1024x2048 : Shape := ⟨2, ![1024, 2048]⟩
abbrev S1024x1024 : Shape := ⟨2, ![1024, 1024]⟩
abbrev S16384x1 : Shape := ⟨2, ![16384, 1]⟩
abbrev S256x3072 : Shape := ⟨2, ![256, 3072]⟩
abbrev S256x1024 : Shape := ⟨2, ![256, 1024]⟩
abbrev S256x1 : Shape := ⟨2, ![256, 1]⟩
abbrev S256x2048 : Shape := ⟨2, ![256, 2048]⟩

abbrev nBuf : Space → Nat
  | .hbm => 9
  | .vmem => 10
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S16384, .f32⟩
  | .hbm, ⟨3, _⟩ => ⟨S1024x2048, .f32⟩
  | .hbm, ⟨4, _⟩ => ⟨S1024x1024, .f32⟩
  | .hbm, ⟨5, _⟩ => ⟨S16384x1, .f32⟩
  | .hbm, ⟨6, _⟩ => ⟨S1024x2048, .bf16⟩
  | .hbm, ⟨7, _⟩ => ⟨S1024x1024, .bf16⟩
  | .hbm, ⟨8, _⟩ => ⟨S16384x1024, .f32⟩
  | .local _ .vmem, ⟨0, _⟩ => ⟨S256x3072, .f32⟩
  | .local _ .vmem, ⟨1, _⟩ => ⟨S256x3072, .f32⟩
  | .local _ .vmem, ⟨2, _⟩ => ⟨S256x1024, .f32⟩
  | .local _ .vmem, ⟨3, _⟩ => ⟨S256x1024, .f32⟩
  | .local _ .vmem, ⟨4, _⟩ => ⟨S256x1, .f32⟩
  | .local _ .vmem, ⟨5, _⟩ => ⟨S256x1, .f32⟩
  | .local _ .vmem, ⟨6, _⟩ => ⟨S1024x2048, .bf16⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16384_S16384x1 : S16384.ShapeCasts S16384x1
  bitsLt_bf16_f32 : FTy.bits .bf16 < FTy.bits .f32
  inb_S256x3072_S256x1024_0_0 : ∀ a, (![0, 0] : Fin 2 → Nat) a + S256x1024.size a ≤ S256x3072.size a
  h_S256x1024 : 0 < S256x1024.numel
  inb_S256x3072_S256x2048_0_1024 : ∀ a, (![0, 1024] : Fin 2 → Nat) a + S256x2048.size a ≤ S256x3072.size a
  h_S256x2048 : 0 < S256x2048.numel
  inb_S256x1024_S256x1024_0_0 : ∀ a, (![0, 0] : Fin 2 → Nat) a + S256x1024.size a ≤ S256x1024.size a
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S256x2048_o0_0_S256x1024 : S256x2048.Slices ![0, 0] S256x1024
  slices_S256x2048_o0_1024_S256x1024 : S256x2048.Slices ![0, 1024] S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x1024 : S256x1.Broadcasts S256x1024
  dot_S256x1024_S1024x2048_S256x2048_1_0_0_1_n_n_wf : DotDims.WF S256x1024 S1024x2048 S256x2048 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3072.size a ≤ S16384x3072.size a
  hwx0_0 : ∀ i : grid0.Coords, EltTy.bits .f32 = 32 ∨ (Rect.block (s := S16384x3072) S256x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .f32 = 32 ∨ (Rect.block (s := S16384x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S16384x1024.size a
  hwx0_5 : ∀ i : grid0.Coords, EltTy.bits .f32 = 32 ∨ (Rect.block (s := S16384x1024) S256x1024.size (cc0_transform_5 i) (hinb0_5 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x3072 : Shape := ⟨2, ![16384, 3072]⟩
abbrev S16384x1024 : Shape := ⟨2, ![16384, 1024]⟩
abbrev S16384 : Shape := ⟨1, ![16384]⟩
abbrev S1024x2048 : Shape := ⟨2, ![1024, 2048]⟩
abbrev S1024x1024 : Shape := ⟨2, ![1024, 1024]⟩
abbrev S16384x2048 : Shape := ⟨2, ![16384, 2048]⟩
abbrev S_ : Shape := ⟨0, ![]⟩
abbrev S16384x1 : Shape := ⟨2, ![16384, 1]⟩

abbrev nBuf : Space → Nat
  | .hbm => 38
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S16384, .f32⟩
  | .hbm, ⟨3, _⟩ => ⟨S1024x2048, .f32⟩
  | .hbm, ⟨4, _⟩ => ⟨S1024x1024, .f32⟩
  | .hbm, ⟨5, _⟩ => ⟨S16384x1024, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S16384x1024, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  slices_S16384x3072_S16384x1024_0_0 : S16384x3072.Slices ![0, 0] S16384x1024
  slices_S16384x3072_S16384x2048_0_1024 : S16384x3072.Slices ![0, 1024] S16384x2048
  bcast_S_S16384x2048 : S_.BroadcastsInDim S16384x2048 (![] : Fin 0 → Fin S16384x2048.rank)
  slices_S16384x2048_S16384x1024_0_0 : S16384x2048.Slices ![0, 0] S16384x1024
  slices_S16384x2048_S16384x1024_0_1024 : S16384x2048.Slices ![0, 1024] S16384x1024
  bcast_S_S16384x1024 : S_.BroadcastsInDim S16384x1024 (![] : Fin 0 → Fin S16384x1024.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  bcast_S_S16384x1 : S_.BroadcastsInDim S16384x1 (![] : Fin 0 → Fin S16384x1.rank)
  dot_S16384x1024_S1024x2048_S16384x2048_1_0_0_1_n_n_wf : DotDims.WF S16384x1024 S1024x2048 S16384x2048 [1] [0] [0] [1] [] []
  dot_S16384x1024_S1024x1024_S16384x1024_1_0_0_1_n_n_wf : DotDims.WF S16384x1024 S1024x1024 S16384x1024 [1] [0] [0] [1] [] []

variable [Facts₀]

def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.LibKeepdims.lean ====
import Idealize.ShloMosaic.PureOps.Ideal.Laws
import Idealize.ShloMosaic.Lib.ValueIdx
import Idealize.ShloMosaic.Lib.Pipeline.Value

/-!
# A sum over the last axis kept as a column, read at an entry

`jnp.sum(x, axis=-1, keepdims=True)` of an `[a, b]` array lowers to three vector operations: a reduction over axis 1
into `[a]`, a shape cast of that vector to the column `[a, 1]`, and, where the column meets the array again, a broadcast
of the column along its unit axis back to `[a, b]`. Each is read here at an index written by coordinates: the column at
`(i, u)` is the vector at `i`, the broadcast at `(i, j)` is the column at `(i, 0)`, and on the extended reals the
reduction at `i` is the sum over `k` of the array at `(i, k)`.
-/

noncomputable section

namespace Cert.LibKeepdims

open Idealize.ShloMosaic Idealize.ShloMosaic.ValueIdx

variable {α : Type}

/-- An `[a]` vector cast to the column `[a, 1]` reads, at `(i, u)`, the vector at `i`: the row-major position of
    `(i, u)` in `[a, 1]` is `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- On the extended reals a `vector.multi_reduction <add>` of an `[a, b]` array over axis 1, started from the zero word,
    is at `i` the sum over `k` of the array at `(i, k)`. The neutrality evidence is typed as a printed body carries it
    (an equation between the two zero words). -/
theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

end Cert.LibKeepdims

end
-- ==== Proof.RowStep.lean ====
import Idealize.ShloMosaic.PureOps.Ideal.Laws
import Idealize.ShloMosaic.PureOps.IdealRules
import Idealize.ShloMosaic.Lib.ValueIdx

/-!
# One row of the gated recurrent step, on the extended reals

A row of the batch carries a state input `s` (1024 entries), a gate input `g` (2048 entries), the previous state `h`
(1024 entries) and a mask value `μ`. With the gate weights `W` (1024 × 2048) and the state weights `U`
(1024 × 1024) the step is

* the gates `σ(h · W + g)`, 2048 of them: the first 1024 are the update gates, the last 1024 the reset gates;
* the candidate `tanh((s ⊙ reset) · U + s)`;
* the additive combination `(candidate + update) + (h + (1 - update))`;
* the masked blend `μ · combination + (1 - μ) · h`.

Both programs compute exactly this expression, in this order of operations, for every row; what differs between them is
only how the rows are laid out in memory. The expression is therefore stated once, over plain functions of the row's
coordinates, and each program's result is then read against it.
-/

noncomputable section

namespace Cert.GatedStep

open Idealize.ShloMosaic

/-- The float literal `1.0`, as the extended real its bit pattern denotes. -/
abbrev one : EReal := Ideal.ofBits .f32 0x3F800000#32

/-- That extended real is the number one. -/
theorem one_eq : one = 1 := IdealRules.sign_bit.ideal_onePat .f32

/-- Column `q` of the update half of the gates. -/
abbrev lo (q : Fin 1024) : Fin 2048 := ⟨q.val, by have := q.isLt; omega⟩

/-- Column `q` of the reset half of the gates. -/
abbrev hi (q : Fin 1024) : Fin 2048 := ⟨1024 + q.val, by have := q.isLt; omega⟩

/-- Gate `j` of a row: the logistic function of the previous state's row against column `j` of the gate weights, plus
    the gate input. -/
def gate (h : Fin 1024 → EReal) (g : Fin 2048 → EReal) (W : Fin 1024 → Fin 2048 → EReal) (j : Fin 2048) : EReal :=
  Ideal.logistic ((∑ k : Fin 1024, h k * W k j) + g j)

/-- Entry `q` of a row's next state. -/
def rowStep (s : Fin 1024 → EReal) (g : Fin 2048 → EReal) (h : Fin 1024 → EReal) (μ : EReal)
    (W : Fin 1024 → Fin 2048 → EReal) (U : Fin 1024 → Fin 1024 → EReal) (q : Fin 1024) : EReal :=
  μ * ((Ideal.tanh ((∑ k : Fin 1024, (s k * gate h g W (hi k)) * U k q) + s q) + gate h g W (lo q))
        + (h q + (one - gate h g W (lo q))))
    + (one - μ) * h q

/-- Column `k` of the state-input part of an input row: its first 1024 entries. -/
abbrev sCol (k : Fin 1024) : Fin 3072 := ⟨k.val, by have := k.isLt; omega⟩

/-- Column `j` of the gate-input part of an input row: its last 2048 entries. -/
abbrev gCol (j : Fin 2048) : Fin 3072 := ⟨1024 + j.val, by have := j.isLt; omega⟩

/-- The whole batch's next state: entry `(r, q)` is the row step of row `r` of the input, of the previous state and of
    the mask, at column `q`. -/
def next (inp : (⟨2, ![16384, 3072]⟩ : Shape).Idx → EReal) (prev : (⟨2, ![16384, 1024]⟩ : Shape).Idx → EReal)
    (mask : (⟨1, ![16384]⟩ : Shape).Idx → EReal) (W : (⟨2, ![1024, 2048]⟩ : Shape).Idx → EReal)
    (U : (⟨2, ![1024, 1024]⟩ : Shape).Idx → EReal) : (⟨2, ![16384, 1024]⟩ : Shape).Idx → EReal :=
  fun i => rowStep (fun k => inp (ValueIdx.ix2 (i 0) (sCol k))) (fun j => inp (ValueIdx.ix2 (i 0) (gCol j)))
    (fun k => prev (ValueIdx.ix2 (i 0) k)) (mask (ValueIdx.ix1 (i 0))) (fun k j => W (ValueIdx.ix2 k j))
    (fun k j => U (ValueIdx.ix2 k j)) (i 1)

/-- The batch's next state at row `r` and column `q`. -/
theorem next_apply (inp : (⟨2, ![16384, 3072]⟩ : Shape).Idx → EReal) (prev : (⟨2, ![16384, 1024]⟩ : Shape).Idx → EReal)
    (mask : (⟨1, ![16384]⟩ : Shape).Idx → EReal) (W : (⟨2, ![1024, 2048]⟩ : Shape).Idx → EReal)
    (U : (⟨2, ![1024, 1024]⟩ : Shape).Idx → EReal) (r : Fin 16384) (q : Fin 1024) :
    next inp prev mask W U (ValueIdx.ix2 r q)
      = rowStep (fun k => inp (ValueIdx.ix2 r (sCol k))) (fun j => inp (ValueIdx.ix2 r (gCol j)))
          (fun k => prev (ValueIdx.ix2 r k)) (mask (ValueIdx.ix1 r)) (fun k j => W (ValueIdx.ix2 k j))
          (fun k j => U (ValueIdx.ix2 k j)) q := rfl

/-- The logistic function spelt with the literal one, negation, the exponential and a quotient is the logistic
    function. -/
theorem logistic_spelt (x : EReal) : Ideal.div one (one + Ideal.exp (-x)) = Ideal.logistic x := by
  rw [one_eq]; rfl

end Cert.GatedStep

end
-- ==== Proof.KernelRow.lean ====
import proofs.«161307_j88519275971179_1_alg».proof.Proof.Gen.KernelIdeal.Skeleton
import proofs.«161307_j88519275971179_1_alg».proof.Proof.LibContract
import proofs.«161307_j88519275971179_1_alg».proof.Proof.LibKeepdims
import proofs.«161307_j88519275971179_1_alg».proof.Proof.RowStep
import Idealize.ShloMosaic.Lib.ValueLayout
import Idealize.ShloMosaic.Lib.Pipeline.Value

/-!
# The kernel's body, entry by entry

The body works on a tile of 256 rows. Its one stored value, read at row `p` and column `q` of the tile, is the row step
of `Cert.GatedStep.rowStep` applied to row `p` of the loaded blocks: the two matrix products into zero accumulators
are sums over the contracted index, the slices of the gate block pick its update and reset halves, the mask column is
broadcast along the row, and the changes of float format are the identity on the extended reals.
-/

noncomputable section

namespace Cert.GatedStep.KernelRow

open Idealize.ShloMosaic Idealize.ShloMosaic.ValueIdx Cert.KernelIdeal Cert.KernelIdeal.Gen Cert.GatedStep

/-- The gate product's printed contraction is the plain one: rows of the left operand against columns of the right. -/
theorem dotW_eq : dot_S256x1024_S1024x2048_S256x2048_1_0_0_1_n_n = DotDims.plain 256 1024 2048 := rfl

/-- So is the state product's. -/
theorem dotU_eq : dot_S256x1024_S1024x1024_S256x1024_1_0_0_1_n_n = DotDims.plain 256 1024 1024 := rfl

/-- The gates of the tile, at row `p` and column `j`: the logistic function of the previous state's row against the
    gate weights' column, plus the gate input. -/
theorem gates_apply (v1 : FVec Ideal S256x2048 .f32) (v2 : FVec Ideal S256x1024 .f32) (w : FVec Ideal S1024x2048 .bf16)
    (p : Fin 256) (j : Fin 2048) :
    logistic (F := Ideal) (addf (matmul (φ₁ := .bf16) (φ₂ := .bf16) dot_S256x1024_S1024x2048_S256x2048_1_0_0_1_n_n none
        (truncf .bf16 v2 bitsLt_bf16_f32) (shapeCast S1024x2048 w shapeCasts_S1024x2048_S1024x2048)
        (constant S256x2048 .f32 0x00000000#32)) v1) (ix2 p j)
      = gate (fun k => v2 (ix2 p k)) (fun j => v1 (ix2 p j)) (fun k j => w (ix2 k j)) j := by
  rw [shapeCast_self, dotW_eq]
  show Ideal.logistic (matmul (φ₁ := .bf16) (φ₂ := .bf16) (DotDims.plain 256 1024 2048) none (truncf .bf16 v2 bitsLt_bf16_f32) w
      (constant (F := Ideal) (⟨2, ![256, 2048]⟩ : Shape) .f32 0x00000000#32) (ix2 p j) + v1 (ix2 p j)) = _
  rw [Cert.LibDense.matmul_plain_zero_apply]
  rfl

/-- The update half of a tile's gates: column `q` of the slice is column `q` of the gates. -/
theorem update_apply (G : FVec Ideal S256x2048 .f32) (p : Fin 256) (q : Fin 1024) :
    extractStridedSlice S256x1024 ![0, 0] G slices_S256x2048_o0_0_S256x1024 (ix2 p q) = G (ix2 p (lo q)) :=
  slice2_axis1_apply 0 G slices_S256x2048_o0_0_S256x1024 p q (lo q) (Nat.zero_add _).symm

/-- The reset half: column `q` of the slice is column `1024 + q` of the gates. -/
theorem reset_apply (G : FVec Ideal S256x2048 .f32) (p : Fin 256) (q : Fin 1024) :
    extractStridedSlice S256x1024 ![0, 1024] G slices_S256x2048_o0_1024_S256x1024 (ix2 p q) = G (ix2 p (hi q)) :=
  slice2_axis1_apply 1024 G slices_S256x2048_o0_1024_S256x1024 p q (hi q) rfl

/-- The state product of a tile, at row `p` and column `q`: the sum over `k` of the left operand's row against the
    state weights' column. -/
theorem state_apply (a : FVec Ideal S256x1024 .f32) (u : FVec Ideal S1024x1024 .bf16) (p : Fin 256) (q : Fin 1024) :
    matmul (F := Ideal) (φ₁ := .bf16) (φ₂ := .bf16) dot_S256x1024_S1024x1024_S256x1024_1_0_0_1_n_n none
        (truncf .bf16 a bitsLt_bf16_f32) (shapeCast S1024x1024 u shapeCasts_S1024x1024_S1024x1024)
        (constant S256x1024 .f32 0x00000000#32) (ix2 p q)
      = ∑ k : Fin 1024, a (ix2 p k) * u (ix2 k q) := by
  rw [shapeCast_self, dotU_eq]
  exact Cert.LibDense.matmul_plain_zero_apply 256 1024 1024 none (truncf .bf16 a bitsLt_bf16_f32) u p q

/-- A column of the tile broadcast along the rows reads, at `(p, q)`, the column's entry of row `p`. -/
theorem col_apply (v : FVec Ideal S256x1 .f32) (p : Fin 256) (q : Fin 1024) :
    broadcastTo S256x1024 v broadcasts_S256x1_S256x1024 (ix2 p q) = v (ix2 p (0 : Fin 1)) :=
  Cert.LibKeepdims.broadcastTo_a1_ab_apply v broadcasts_S256x1_S256x1024 p q

/-- The hyperbolic tangent of a tile is taken entry by entry. -/
theorem tanh_apply {s : Shape} {φ : FTy} (a : FVec Ideal s φ) (i : s.Idx) : tanh a i = Ideal.tanh (a i) := rfl

/-- THE BODY'S STORED VALUE at row `p` and column `q` of the tile is the row step of row `p` of the loaded blocks:
    `v0` the state-input block, `v1` the gate-input block, `v2` the previous state's block, `v23` the mask column,
    `v4` and `v13` the two weight arrays. -/
theorem pay_apply (v0 : Vec Ideal S256x1024 .f32) (v1 : Vec Ideal S256x2048 .f32) (v2 : Vec Ideal S256x1024 .f32)
    (v4 : Vec Ideal S1024x2048 .bf16) (v13 : Vec Ideal S1024x1024 .bf16) (v23 : Vec Ideal S256x1 .f32)
    (p : Fin 256) (q : Fin 1024) :
    k0_pay1 (F := Ideal) v0 v1 v2 v4 v13 v23 (ix2 p q)
      = rowStep (fun k => v0 (ix2 p k)) (fun j => v1 (ix2 p j)) (fun k => v2 (ix2 p k)) (v23 (ix2 p (0 : Fin 1)))
          (fun k j => v4 (ix2 k j)) (fun k j => v13 (ix2 k j)) q := by
  unfold k0_pay1
  rw [addf_apply, mulf_apply, mulf_apply, col_apply, col_apply, subf_apply, shapeCast_self, addf_apply, addf_apply,
    addf_apply, subf_apply, update_apply, gates_apply]
  rw [tanh_apply, addf_apply, state_apply]
  simp only [mulf_apply, reset_apply, gates_apply]
  rfl

end Cert.GatedStep.KernelRow

end
-- ==== Proof.KernelTile.lean ====
import proofs.«161307_j88519275971179_1_alg».proof.Proof.Gen.KernelIdeal.Frame
import proofs.«161307_j88519275971179_1_alg».proof.Proof.KernelRow
import Idealize.ShloMosaic.Lib.Pipeline.Value

/-!
# One tile of the kernel against the batch's next state

At a grid point the body sees a tile of 256 rows: the rows `row p` of the batch, for `p` the row inside the tile. If the
tile's blocks are those rows of the input, of the previous state and of the mask column, and its two weight blocks are the
weight arrays, then what the body stores at `(p, q)` is the batch's next state at `(row p, q)`.

The body loads the state input and the gate input as two rectangles of the one input block: columns `0 … 1023` and
columns `1024 … 3071`.
-/

noncomputable section

namespace Cert.GatedStep.KernelTile

open Idealize.ShloMosaic Idealize.ShloMosaic.ValueIdx Cert.KernelIdeal Cert.KernelIdeal.Gen Cert.GatedStep

/-- The offset of a rectangle that starts at the origin. -/
theorem origin : (![0, 0] : Fin 2 → Nat) = fun _ => 0 := funext fun a => by fin_cases a <;> rfl

/-- The state-input rectangle of the input block reads its columns `0 … 1023`. -/
theorem ld_state (x0 : Vec Ideal S256x3072 .f32) (p : Fin 256) (k : Fin 1024) :
    View.ld x0 r0_0 (ix2 p k) = x0 (ix2 p (sCol k)) :=
  congrArg x0 (funext fun a => Fin.ext (by
    match a with
    | ⟨0, _⟩ => show 0 + 1 * p.val = p.val; omega
    | ⟨1, _⟩ => show 0 + 1 * k.val = k.val; omega))

/-- The gate-input rectangle reads its columns `1024 … 3071`. -/
theorem ld_gate (x0 : Vec Ideal S256x3072 .f32) (p : Fin 256) (j : Fin 2048) :
    View.ld x0 r0_1 (ix2 p j) = x0 (ix2 p (gCol j)) :=
  congrArg x0 (funext fun a => Fin.ext (by
    match a with
    | ⟨0, _⟩ => show 0 + 1 * p.val = p.val; omega
    | ⟨1, _⟩ => show 1024 + 1 * j.val = 1024 + j.val; omega))

/-- THE TILE: the body's stored value at `(p, q)` is the batch's next state at `(row p, q)`, when the tile's blocks are
    the rows `row p` of the batch's arrays (the mask laid as a column) and the weight blocks are the weight arrays. -/
theorem tile_apply (X0 : S16384x3072.Idx → EReal) (X1 : S16384x1024.Idx → EReal) (Mv : S16384.Idx → EReal)
    (W : S1024x2048.Idx → EReal) (Uw : S1024x1024.Idx → EReal)
    (x0 : Vec Ideal S256x3072 .f32) (x1 : Vec Ideal S256x1024 .f32) (x2 : Vec Ideal S256x1 .f32)
    (x3 : Vec Ideal S1024x2048 .bf16) (x4 : Vec Ideal S1024x1024 .bf16) (row : Fin 256 → Fin 16384)
    (h0 : ∀ (p : Fin 256) (c : Fin 3072), x0 (ix2 p c) = X0 (ix2 (row p) c))
    (h1 : ∀ (p : Fin 256) (k : Fin 1024), x1 (ix2 p k) = X1 (ix2 (row p) k))
    (h2 : ∀ p : Fin 256, x2 (ix2 p (0 : Fin 1)) = Mv (ix1 (row p)))
    (h3 : ∀ (k : Fin 1024) (j : Fin 2048), x3 (ix2 k j) = W (ix2 k j))
    (h4 : ∀ (k : Fin 1024) (j : Fin 1024), x4 (ix2 k j) = Uw (ix2 k j)) (p : Fin 256) (q : Fin 1024) :
    k0_pay1 (F := Ideal) (View.ld x0 r0_0) (View.ld x0 r0_1) (View.ld x1 r0_2) (View.ld x3 r0_3) (View.ld x4 r0_4)
        (View.ld x2 r0_5) (ix2 p q)
      = next X0 X1 Mv W Uw (ix2 (row p) q) := by
  rw [KernelRow.pay_apply, next_apply]
  have e0 : (fun k => View.ld x0 r0_0 (ix2 p k)) = fun k => X0 (ix2 (row p) (sCol k)) :=
    funext fun k => (ld_state x0 p k).trans (h0 p _)
  have e1 : (fun j => View.ld x0 r0_1 (ix2 p j)) = fun j => X0 (ix2 (row p) (gCol j)) :=
    funext fun j => (ld_gate x0 p j).trans (h0 p _)
  have e2 : (fun k => View.ld x1 r0_2 (ix2 p k)) = fun k => X1 (ix2 (row p) k) :=
    funext fun k => (congrFun (View.ld_unit_zero (S := S256x1024) origin _ x1) _).trans (h1 p k)
  have e3 : (fun k j => View.ld x3 r0_3 (ix2 k j)) = fun k j => W (ix2 k j) :=
    funext fun k => funext fun j => (congrFun (View.ld_unit_zero (S := S1024x2048) origin _ x3) _).trans (h3 k j)
  have e4 : (fun k j => View.ld x4 r0_4 (ix2 k j)) = fun k j => Uw (ix2 k j) :=
    funext fun k => funext fun j => (congrFun (View.ld_unit_zero (S := S1024x1024) origin _ x4) _).trans (h4 k j)
  have e5 : View.ld x2 r0_5 (ix2 p (0 : Fin 1)) = Mv (ix1 (row p)) :=
    (congrFun (View.ld_unit_zero (S := S256x1) origin _ x2) _).trans (h2 p)
  rw [e0, e1, e2, e3, e4, e5]

end Cert.GatedStep.KernelTile

end
-- ==== Proof.KernelArray.lean ====
import proofs.«161307_j88519275971179_1_alg».proof.Proof.Gen.KernelIdeal.Value
import proofs.«161307_j88519275971179_1_alg».proof.Proof.KernelTile
import Idealize.ShloMosaic.Lib.Pipeline.Value
import Idealize.ShloMosaic.Lib.StableHlo.Run

/-!
# The kernel's result array

The grid has 64 points; point `t` works on rows `256 t … 256 t + 255` of the batch and writes those rows of the result.
The mask reaches the kernel reshaped to a column and the two weight arrays converted to a narrower float format, which
on the extended reals changes nothing. Each point therefore writes its rows of the batch's next state, the 64 tiles
cover the result, and the result array after the run is the batch's next state.
-/

noncomputable section

namespace Cert.GatedStep.KernelArray

open Idealize.ShloMosaic Idealize.ShloMosaic.TcCoe Idealize.ShloMosaic.ValueIdx Idealize.SL.Sem
open Cert.KernelIdeal Cert.KernelIdeal.Gen Cert.GatedStep
open Idealize.ShloMosaic.Pipeline (Dat)

variable (m : (ℓ : Loc nD τ sig) → Buf (Elt Ideal) ℓ) (ρ : Dev nD → PrngReg)

/-! ## What the region finds in the arrays the host operations wrote -/

/-- The mask as the region finds it: the mask vector laid as a column. -/
theorem mask_col (c : Dev nD) (r : Fin 16384) (u : Fin 1) :
    (V m c main_v0 : S16384x1.Idx → EReal) (ix2 r u) = (m ((c : Thread nD τ).loc main_arg2) : S16384.Idx → EReal) (ix1 r) := by
  have e : (V m c main_v0 : S16384x1.Idx → EReal)
      = shapeCast S16384x1 (m ((c : Thread nD τ).loc main_arg2) : S16384.Idx → EReal) shapeCasts_S16384_S16384x1 := by
    dsimp only [Gen.V, Gen.hostOps0]; after_results; rfl
  rw [e]
  exact Cert.LibKeepdims.shapeCast_a_a1_apply _ _ r u

/-- The gate weights as the region finds them: the argument's, the change of format being the identity. -/
theorem gate_weights (c : Dev nD) :
    (V m c main_v1 : S1024x2048.Idx → EReal) = (m ((c : Thread nD τ).loc main_arg3) : S1024x2048.Idx → EReal) := by
  dsimp only [Gen.V, Gen.hostOps0]; after_results; rfl

/-- The state weights likewise. -/
theorem state_weights (c : Dev nD) :
    (V m c main_v2 : S1024x1024.Idx → EReal) = (m ((c : Thread nD τ).loc main_arg4) : S1024x1024.Idx → EReal) := by
  dsimp only [Gen.V, Gen.hostOps0]; after_results; rfl

/-! ## The tiles' rows -/

/-- A grid point is one of 64. -/
theorem point_lt (t : Fin cfg0.N) : t.val < 64 := lt_of_lt_of_eq t.isLt N_0

/-- Row `p` of point `t`'s tile is row `256 t + p` of the batch. -/
def rowOf (t : Fin cfg0.N) (p : Fin 256) : Fin 16384 :=
  ⟨t.val * 256 + p.val, by have := point_lt t; have := p.isLt; omega⟩

/-- The printed index maps, decided over the grid: the input, the previous state, the mask column and the result move
    down one tile of rows per point; the two weight arrays stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The input's block at a point. -/
abbrev inpBlk (c : Dev nD) (t : Fin cfg0.N) : Vec Ideal S256x3072 .f32 := iblk m c 0 t
/-- The previous state's block at a point. -/
abbrev prevBlk (c : Dev nD) (t : Fin cfg0.N) : Vec Ideal S256x1024 .f32 := iblk m c 1 t
/-- The mask column's block at a point. -/
abbrev maskBlk (c : Dev nD) (t : Fin cfg0.N) : Vec Ideal S256x1 .f32 := iblk m c 2 t
/-- The gate weights' block at a point. -/
abbrev gateBlk (c : Dev nD) (t : Fin cfg0.N) : Vec Ideal S1024x2048 .bf16 := iblk m c 3 t
/-- The state weights' block at a point. -/
abbrev stateBlk (c : Dev nD) (t : Fin cfg0.N) : Vec Ideal S1024x1024 .bf16 := iblk m c 4 t

/-- The input's block at point `t` holds rows `256 t …` of the input argument. -/
theorem inpBlk_apply (c : Dev nD) (t : Fin cfg0.N) (p : Fin 256) (k : Fin 3072) :
    inpBlk m c t (ix2 p k) = (m ((c : Thread nD τ).loc main_arg0) : S16384x3072.Idx → EReal) (ix2 (rowOf t p) k) := by
  obtain ⟨e0, e1, -⟩ := idx_facts t
  show (V m c main_arg0 : S16384x3072.Idx → EReal) (((cfg0.win 0).blk t).view.emb (ix2 p k)) = _
  rw [V_main_arg0]
  refine congrArg _ (funext fun a => Fin.ext ?_)
  match a with
  | ⟨0, _⟩ => show win0_0.index t (0 : Fin 2) * 256 + 1 * p.val = t.val * 256 + p.val; rw [e0]; omega
  | ⟨1, _⟩ => show win0_0.index t (1 : Fin 2) * 3072 + 1 * k.val = k.val; rw [e1]; omega

/-- The previous state's block at point `t` holds rows `256 t …` of the previous state. -/
theorem prevBlk_apply (c : Dev nD) (t : Fin cfg0.N) (p : Fin 256) (k : Fin 1024) :
    prevBlk m c t (ix2 p k) = (m ((c : Thread nD τ).loc main_arg1) : S16384x1024.Idx → EReal) (ix2 (rowOf t p) k) := by
  obtain ⟨-, -, e0, e1, -⟩ := idx_facts t
  show (V m c main_arg1 : S16384x1024.Idx → EReal) (((cfg0.win 1).blk t).view.emb (ix2 p k)) = _
  rw [V_main_arg1]
  refine congrArg _ (funext fun a => Fin.ext ?_)
  match a with
  | ⟨0, _⟩ => show win0_1.index t (0 : Fin 2) * 256 + 1 * p.val = t.val * 256 + p.val; rw [e0]; omega
  | ⟨1, _⟩ => show win0_1.index t (1 : Fin 2) * 1024 + 1 * k.val = k.val; rw [e1]; omega

/-- The mask column's block at point `t` holds entries `256 t …` of the mask vector. -/
theorem maskBlk_apply (c : Dev nD) (t : Fin cfg0.N) (p : Fin 256) :
    maskBlk m c t (ix2 p (0 : Fin 1)) = (m ((c : Thread nD τ).loc main_arg2) : S16384.Idx → EReal) (ix1 (rowOf t p)) := by
  obtain ⟨-, -, -, -, e0, e1, -⟩ := idx_facts t
  show (V m c main_v0 : S16384x1.Idx → EReal) (((cfg0.win 2).blk t).view.emb (ix2 p (0 : Fin 1))) = _
  rw [← mask_col m c (rowOf t p) 0]
  refine congrArg _ (funext fun a => Fin.ext ?_)
  match a with
  | ⟨0, _⟩ => show win0_2.index t (0 : Fin 2) * 256 + 1 * p.val = t.val * 256 + p.val; rw [e0]; omega
  | ⟨1, _⟩ => show win0_2.index t (1 : Fin 2) * 1 + 1 * 0 = 0; rw [e1]

/-- The gate weights' block is the gate weights, at every point. -/
theorem gateBlk_apply (c : Dev nD) (t : Fin cfg0.N) (k : Fin 1024) (j : Fin 2048) :
    gateBlk m c t (ix2 k j) = (m ((c : Thread nD τ).loc main_arg3) : S1024x2048.Idx → EReal) (ix2 k j) := by
  obtain ⟨-, -, -, -, -, -, e0, e1, -⟩ := idx_facts t
  show (V m c main_v1 : S1024x2048.Idx → EReal) (((cfg0.win 3).blk t).view.emb (ix2 k j)) = _
  rw [gate_weights]
  refine congrArg _ (funext fun a => Fin.ext ?_)
  match a with
  | ⟨0, _⟩ => show win0_3.index t (0 : Fin 2) * 1024 + 1 * k.val = k.val; rw [e0]; omega
  | ⟨1, _⟩ => show win0_3.index t (1 : Fin 2) * 2048 + 1 * j.val = j.val; rw [e1]; omega

/-- The state weights' block is the state weights, at every point. -/
theorem stateBlk_apply (c : Dev nD) (t : Fin cfg0.N) (k : Fin 1024) (j : Fin 1024) :
    stateBlk m c t (ix2 k j) = (m ((c : Thread nD τ).loc main_arg4) : S1024x1024.Idx → EReal) (ix2 k j) := by
  obtain ⟨-, -, -, -, -, -, -, -, e0, e1, -⟩ := idx_facts t
  show (V m c main_v2 : S1024x1024.Idx → EReal) (((cfg0.win 4).blk t).view.emb (ix2 k j)) = _
  rw [state_weights]
  refine congrArg _ (funext fun a => Fin.ext ?_)
  match a with
  | ⟨0, _⟩ => show win0_4.index t (0 : Fin 2) * 1024 + 1 * k.val = k.val; rw [e0]; omega
  | ⟨1, _⟩ => show win0_4.index t (1 : Fin 2) * 1024 + 1 * j.val = j.val; rw [e1]; omega

/-! ## From the tiles to the array -/

/-- The batch's next state, of the arguments as launched. -/
abbrev nextOf (c : Dev nD) : S16384x1024.Idx → EReal :=
  next (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT `t` WRITES BACK is its tile of the batch's next state. -/
theorem flushed_eq (c : Dev nD) (t : Fin cfg0.N) :
    (dats m 0 c).flushed 5 t = ((cfg0.win 5).blk t).view.read (Elt Ideal) (nextOf m c) := by
  rw [Cert.KernelIdeal.Value.flushed5]
  unfold out0_5
  rw [View.canon_unit_zero KernelTile.origin]
  obtain ⟨-, -, -, -, -, -, -, -, -, -, e0, e1⟩ := idx_facts t
  funext j
  obtain ⟨p, q, rfl⟩ : ∃ (p : Fin 256) (q : Fin 1024), j = ix2 p q := ⟨j 0, j 1, eq_ix2 j⟩
  show k0_pay1 (F := Ideal) (View.ld (inpBlk m c t) r0_0) (View.ld (inpBlk m c t) r0_1) (View.ld (prevBlk m c t) r0_2)
      (View.ld (gateBlk m c t) r0_3) (View.ld (stateBlk m c t) r0_4) (View.ld (maskBlk m c t) r0_5) (ix2 p q)
    = nextOf m c (((cfg0.win 5).blk t).view.emb (ix2 p q))
  have hi : ((cfg0.win 5).blk t).view.emb (ix2 p q) = ix2 (rowOf t p) q := funext fun a => Fin.ext (by
    match a with
    | ⟨0, _⟩ => show win0_5.index t (0 : Fin 2) * 256 + 1 * p.val = t.val * 256 + p.val; rw [e0]; omega
    | ⟨1, _⟩ => show win0_5.index t (1 : Fin 2) * 1024 + 1 * q.val = q.val; rw [e1]; omega)
  rw [hi]
  exact KernelTile.tile_apply _ _ _ _ _ (inpBlk m c t) (prevBlk m c t) (maskBlk m c t) (gateBlk m c t) (stateBlk m c t)
    (rowOf t) (inpBlk_apply m c t) (prevBlk_apply m c t) (maskBlk_apply m c t) (gateBlk_apply m c t)
    (stateBlk_apply m c t) p q

/-- An index of the result is in point `t`'s tile iff each coordinate is in the tile's range on its axis. -/
theorem mem_tile (t : Fin cfg0.N) (i : S16384x1024.Idx) :
    i ∈ ((cfg0.win 5).blk t).view.set ↔ ∀ a : Fin 2, win0_5.index t a * S256x1024.size a ≤ (i a).val
      ∧ (i a).val < win0_5.index t a * S256x1024.size a + S256x1024.size a := by
  show i ∈ ((View.whole main_v3).slice (win0_5.rect t)).set ↔ _
  rw [View.set_slice_whole, Rect.mem_set_unit]
  exact Iff.rfl

/-- The tiles cover the result: row `r` is in the tile of point `r / 256`. -/
theorem cover (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  have hN : cfg0.N = 64 := N_0
  have ht : (⟨(i 0).val / 256, by rw [hN]; omega⟩ : Fin cfg0.N).val = (i 0).val / 256 := rfl
  obtain ⟨-, -, -, -, -, -, -, -, -, -, e0, e1⟩ := idx_facts ⟨(i 0).val / 256, by rw [hN]; omega⟩
  refine ⟨⟨(i 0).val / 256, by rw [hN]; omega⟩, flush0_5 _, ?_⟩
  rw [mem_tile]
  intro a
  match a with
  | ⟨0, _⟩ =>
    show win0_5.index _ (0 : Fin 2) * 256 ≤ (i 0).val ∧ (i 0).val < win0_5.index _ (0 : Fin 2) * 256 + 256
    rw [e0, ht]; omega
  | ⟨1, _⟩ =>
    show win0_5.index _ (1 : Fin 2) * 1024 ≤ (i 1).val ∧ (i 1).val < win0_5.index _ (1 : Fin 2) * 1024 + 1024
    rw [e1]; omega

/-- THE RESULT ARRAY after the run is the batch's next state. -/
theorem final (c : Dev nD) : (dats m 0 c).arrAt 5 cfg0.N = nextOf m c :=
  (dats m 0 c).arrAt_eq_of_cover 5 (nextOf m c) (fun t _ => flushed_eq m c t) cover

/-- The kernel's run: every weakly fair execution ends with the result array at the batch's next state of the arguments
    as launched, and the arguments unchanged. -/
theorem run : θ_run defs (onTc (τ := τ) (main (F := Ideal))) ⟨m, fun _ => 0, ρ⟩ fun r => ∀ c : Dev nD,
      r.2.mem ((c : Thread nD τ).loc main_v3) = nextOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.GatedStep.KernelArray

end
-- ==== Proof.RefRow.lean ====
import proofs.«161307_j88519275971179_1_alg».proof.Proof.Gen.ReferenceIdeal.Read
import proofs.«161307_j88519275971179_1_alg».proof.Proof.RowStep

/-!
# The reference, entry by entry

The reference works on the whole batch of 16384 rows at once. Read one operation at a time at row `r` and column `q`,
its result is the row step of `Cert.GatedStep.rowStep` applied to row `r` of the arguments: the two `dot_general`s are
sums over the contracted index, the slices pick the state-input and gate-input parts of the input row and the update and
reset halves of the gates, the logistic function is spelt with a negation, an exponential, a sum with one and a quotient,
and the mask vector is laid as a column and broadcast along the row.
-/

noncomputable section

namespace Cert.GatedStep.RefRow

open Idealize.ShloMosaic Idealize.ShloMosaic.ValueIdx Cert.ReferenceIdeal Cert.ReferenceIdeal.Gen Cert.ReferenceIdeal.Read
  Cert.GatedStep

/-! ## Where each layout operation reads its operand, by coordinates -/

/-- The state-input slice reads the input row at its first 1024 columns. -/
theorem idx_s (r : Fin 16384) (q : Fin 1024) : idx_main_v0 (ix2 r q) = ix2 r (sCol q) :=
  funext fun a => by match a with | ⟨0, _⟩ => rfl | ⟨1, _⟩ => rfl

/-- The gate-input slice reads the input row from column 1024 on. -/
theorem idx_g (r : Fin 16384) (j : Fin 2048) : idx_main_v1 (ix2 r j) = ix2 r (gCol j) :=
  funext fun a => by match a with | ⟨0, _⟩ => rfl | ⟨1, _⟩ => rfl

/-- The update slice reads the gates at their first 1024 columns. -/
theorem idx_lo (r : Fin 16384) (q : Fin 1024) : idx_main_v10 (ix2 r q) = ix2 r (lo q) :=
  funext fun a => by match a with | ⟨0, _⟩ => rfl | ⟨1, _⟩ => rfl

/-- The reset slice reads the gates from column 1024 on. -/
theorem idx_hi (r : Fin 16384) (q : Fin 1024) : idx_main_v11 (ix2 r q) = ix2 r (hi q) :=
  funext fun a => by match a with | ⟨0, _⟩ => rfl | ⟨1, _⟩ => rfl

/-- The gate product reads the previous state's row `r` at `k` -/
theorem lidx_gate (r : Fin 16384) (j : Fin 2048) (k : Fin 1024) : lidx_main_v2 (ix2 r j) k = ix2 r k :=
  funext fun a => by match a with | ⟨0, _⟩ => rfl | ⟨1, _⟩ => rfl

/-- against the gate weights' column `j` at `k`. -/
theorem ridx_gate (r : Fin 16384) (j : Fin 2048) (k : Fin 1024) : ridx_main_v2 (ix2 r j) k = ix2 k j :=
  funext fun a => by match a with | ⟨0, _⟩ => rfl | ⟨1, _⟩ => rfl

/-- The state product reads its left operand's row `r` at `k` -/
theorem lidx_state (r : Fin 16384) (q : Fin 1024) (k : Fin 1024) : lidx_main_v13 (ix2 r q) k = ix2 r k :=
  funext fun a => by match a with | ⟨0, _⟩ => rfl | ⟨1, _⟩ => rfl

/-- against the state weights' column `q` at `k`. -/
theorem ridx_state (r : Fin 16384) (q : Fin 1024) (k : Fin 1024) : ridx_main_v13 (ix2 r q) k = ix2 k q :=
  funext fun a => by match a with | ⟨0, _⟩ => rfl | ⟨1, _⟩ => rfl

/-- The mask column broadcast along the row reads the column at row `r`. -/
theorem idx_mask (r : Fin 16384) (q : Fin 1024) : idx_main_v22 (ix2 r q) = ix2 r (0 : Fin 1) :=
  funext fun a => by match a with | ⟨0, _⟩ => rfl | ⟨1, _⟩ => rfl

/-- The complement column likewise. -/
theorem idx_comask (r : Fin 16384) (q : Fin 1024) : idx_main_v26 (ix2 r q) = ix2 r (0 : Fin 1) :=
  funext fun a => by match a with | ⟨0, _⟩ => rfl | ⟨1, _⟩ => rfl

/-- The mask vector laid as a column reads the vector at the row. -/
theorem idx_col (r : Fin 16384) (u : Fin 1) : idx_main_v21 (ix2 r u) = ix1 r :=
  funext fun a => by match a with | ⟨0, _⟩ => rfl

/-! ## The gates and the result -/

/-- The reference's gates at row `r` and column `j`. -/
theorem gates_apply (x0 : FVec Ideal S16384x3072 .f32) (x1 : FVec Ideal S16384x1024 .f32) (x3 : FVec Ideal S1024x2048 .f32)
    (r : Fin 16384) (j : Fin 2048) :
    val_main_v9 (F := Ideal) x0 x1 x3 (ix2 r j)
      = gate (fun k => x1 (ix2 r k)) (fun j => x0 (ix2 r (gCol j))) (fun k j => x3 (ix2 k j)) j := by
  rw [val_main_v9_apply, val_main_v8_apply, val_main_cst_0_apply, val_main_v7_apply, val_main_v6_apply, val_main_cst_apply,
    val_main_v5_apply, val_main_v4_apply, val_main_v3_apply, val_main_v2_apply, val_main_v1_apply, idx_g]
  simp only [lidx_gate, ridx_gate]
  exact logistic_spelt _

/-- THE REFERENCE'S RESULT at row `r` and column `q` is the row step of row `r` of its arguments. -/
theorem ref_apply (x0 : FVec Ideal S16384x3072 .f32) (x1 : FVec Ideal S16384x1024 .f32) (x2 : FVec Ideal S16384 .f32)
    (x3 : FVec Ideal S1024x2048 .f32) (x4 : FVec Ideal S1024x1024 .f32) (r : Fin 16384) (q : Fin 1024) :
    val_main_v28 (F := Ideal) x0 x1 x2 x3 x4 (ix2 r q)
      = rowStep (fun k => x0 (ix2 r (sCol k))) (fun j => x0 (ix2 r (gCol j))) (fun k => x1 (ix2 r k)) (x2 (ix1 r))
          (fun k j => x3 (ix2 k j)) (fun k j => x4 (ix2 k j)) q := by
  simp only [val_main_v28_apply, val_main_v27_apply, val_main_v26_apply, val_main_v25_apply, val_main_v24_apply,
    val_main_cst_2_apply, val_main_v23_apply, val_main_v22_apply, val_main_v21_apply, val_main_v20_apply,
    val_main_v19_apply, val_main_v18_apply, val_main_v17_apply, val_main_cst_1_apply, val_main_v16_apply,
    val_main_v15_apply, val_main_v14_apply, val_main_v13_apply, val_main_v12_apply, val_main_v11_apply,
    val_main_v10_apply, val_main_v0_apply, idx_s, idx_lo, idx_hi, lidx_state, ridx_state, idx_mask, idx_comask, idx_col,
    gates_apply]
  rfl

/-- The reference's result is the batch's next state. -/
theorem ref_eq (x0 : FVec Ideal S16384x3072 .f32) (x1 : FVec Ideal S16384x1024 .f32) (x2 : FVec Ideal S16384 .f32)
    (x3 : FVec Ideal S1024x2048 .f32) (x4 : FVec Ideal S1024x1024 .f32) :
    val_main_v28 (F := Ideal) x0 x1 x2 x3 x4 = next x0 x1 x2 x3 x4 := by
  funext i
  rw [eq_ix2 i]
  exact ref_apply x0 x1 x2 x3 x4 (i 0) (i 1)

end Cert.GatedStep.RefRow

end
-- ==== Proof.lean ====
/- The certificate of one gated recurrent step over a batch of 16384 rows.

   Each row carries a state input and a gate input (the two parts of an input row of 3072 entries), a previous state
   of 1024 entries and a mask value. The step forms the gates `σ(h · W + g)`, the candidate
   `tanh((s ⊙ reset) · U + s)`, the additive combination `(candidate + update) + (h + (1 - update))` and the masked
   blend `μ · combination + (1 - μ) · h` (Proof/RowStep.lean states it once, for one row).

   The kernel walks the batch in 64 tiles of 256 rows; its two matrix products run on operands converted to a narrower
   float format and accumulate from zero, and its logistic function is one operation. The reference treats the whole batch
   at once, with `dot_general`s and the logistic function spelt out with an exponential and a quotient. On the extended
   reals a change of format is the identity, a product into a zero accumulator is the plain sum over the contracted
   index, and the spelt-out logistic function is the logistic function: so, entry by entry, both results are the row
   step of the entry's row (Proof/KernelRow.lean and Proof/RefRow.lean), the kernel's tiles cover the result
   (Proof/KernelTile.lean, Proof/KernelArray.lean), and the two result arrays are one function of the arguments.
   The equality uses no algebraic law beyond that, so the finiteness of the inputs is never needed.

   The three frames: the kernel's two are the generated frame certificates; the reference's is its run with the
   result dropped. The idealized kernel is the kernel's own text read on the extended reals (no rewrite was applied),
   so there is nothing to preserve. -/
import proofs.«161307_j88519275971179_1_alg».proof.Defs
import proofs.«161307_j88519275971179_1_alg».proof.Proof.Gen.Kernel
import proofs.«161307_j88519275971179_1_alg».proof.Proof.Gen.Kernel.Skeleton
import proofs.«161307_j88519275971179_1_alg».proof.Proof.Gen.Kernel.Launch
import proofs.«161307_j88519275971179_1_alg».proof.Proof.Gen.Kernel.Points
import proofs.«161307_j88519275971179_1_alg».proof.Proof.Gen.Kernel.Frame
import proofs.«161307_j88519275971179_1_alg».proof.Proof.Gen.KernelIdeal
import proofs.«161307_j88519275971179_1_alg».proof.Proof.Gen.KernelIdeal.Skeleton
import proofs.«161307_j88519275971179_1_alg».proof.Proof.Gen.KernelIdeal.Launch
import proofs.«161307_j88519275971179_1_alg».proof.Proof.Gen.KernelIdeal.Points
import proofs.«161307_j88519275971179_1_alg».proof.Proof.Gen.KernelIdeal.Frame
import proofs.«161307_j88519275971179_1_alg».proof.Proof.Gen.ReferenceIdeal
import proofs.«161307_j88519275971179_1_alg».proof.Proof.Gen.KernelIdeal.Value
import proofs.«161307_j88519275971179_1_alg».proof.Proof.Gen.ReferenceIdeal.Run
import proofs.«161307_j88519275971179_1_alg».proof.Proof.Gen.ReferenceIdeal.Read
import proofs.«161307_j88519275971179_1_alg».proof.Proof.Gen.Pre_finite_inputs
import proofs.«161307_j88519275971179_1_alg».proof.Proof.KernelArray
import proofs.«161307_j88519275971179_1_alg».proof.Proof.RefRow
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories agreeing on the arguments, the kernel's result array and the reference's are both the batch's next
    state of those arguments. -/
theorem algebraic : Cert.algebraic_KernelIdeal_ReferenceIdeal := by
  intro m ρ m' ρ' _ hagree
  refine ⟨_, Cert.GatedStep.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.GatedStep.RefRow.ref_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
